-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x128 : Shape := ⟨3, ![8, 2048, 128]⟩
abbrev S1x2048x128 : Shape := ⟨3, ![1, 2048, 128]⟩
abbrev S2048x128 : Shape := ⟨2, ![2048, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  shapeCasts_S2048x128_S1x2048x128 : S2048x128.ShapeCasts S1x2048x128
  dot_S2048x128_S2048x128_S128x128_0_0_1_1_n_n_wf : DotDims.WF S2048x128 S2048x128 S128x128 [0] [0] [1] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)

variable [Facts₀]

def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .hbm, ⟨3, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Scores.lean ====
/-
  The two arrangements of the attention scores, and the law that joins them.

  For one batch entry write E for the encoder states (rows t, columns d) and Q for the decoder states (rows q, columns d).
  The result asked for is  S · E  with  S = Q · Eᵀ  the table of dot products: entry (q, d) is
      ∑ₖ (∑_{d'} Q[q, d'] · E[k, d']) · E[k, d].                                  ("scores first")
  Matrix multiplication is associative, so the same entry is  Q · (Eᵀ · E), with the small Gram matrix Eᵀ · E
  computed first:
      ∑_{d'} Q[q, d'] · (∑ₜ E[t, d'] · E[t, d]).                                  ("Gram first")
  Passing from one to the other moves the factor Q[q, d'] across the sum over t, which is distributivity; on the
  extended reals that fails at the infinities (∞ · (1 + (-1)) against ∞ · 1 + ∞ · (-1)), so the law is stated for arrays
  whose every entry is a real number, where both sides are the same finite double sum of real numbers.
-/
import Idealize.ShloMosaic.PureOps.Ideal.Laws
import Idealize.ShloMosaic.Lib.ValueIdx

noncomputable section

namespace Cert.Scores

open Idealize.ShloMosaic Idealize.ShloMosaic.ValueIdx
open scoped BigOperators

/-- The shape of both inputs and of the result: 8 batch entries of 2048 rows of 128 numbers. -/
abbrev Arr : Shape := ⟨3, ![8, 2048, 128]⟩

/-- Every entry of the array is a real number (neither infinity). -/
def AllReal (x : Arr.Idx → EReal) : Prop := ∀ i, ∃ r : ℝ, x i = (r : EReal)

/-- Gram first: entry (b, q, d) is the sum over d' of Q[b, q, d'] times the Gram entry ∑ₜ E[b, t, d'] · E[b, t, d]. -/
def gramFirst (enc dec : Arr.Idx → EReal) : Arr.Idx → EReal := fun i =>
  ∑ d' : Fin 128, dec (ix3 (i 0) (i 1) d') * ∑ t : Fin 2048, enc (ix3 (i 0) t d') * enc (ix3 (i 0) t (i 2))

/-- Scores first: entry (b, q, d) is the sum over k of the dot product of row q of Q with row k of E, times E[b, k, d]. -/
def scoresFirst (enc dec : Arr.Idx → EReal) : Arr.Idx → EReal := fun i =>
  ∑ k : Fin 2048, (∑ d' : Fin 128, dec (ix3 (i 0) (i 1) d') * enc (ix3 (i 0) k d')) * enc (ix3 (i 0) k (i 2))

/-- A finite sum of real numbers taken in the extended reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Associativity of the triple product over the reals, entry by entry: the factor a(d') moves across the sum over t
    and the two finite sums change places. -/
theorem reassoc_real {T D : Type} [Fintype T] [Fintype D] (a : D → ℝ) (u : T → D → ℝ) (v : T → ℝ) :
    ∑ d', a d' * ∑ t, u t d' * v t = ∑ t, (∑ d', a d' * u t d') * v t := by
  simp only [Finset.mul_sum, Finset.sum_mul]
  rw [Finset.sum_comm]
  refine Finset.sum_congr rfl fun t _ => Finset.sum_congr rfl fun d' _ => ?_
  ring

/-- The same law for real numbers read as extended reals. -/
theorem reassoc {T D : Type} [Fintype T] [Fintype D] (a : D → ℝ) (u : T → D → ℝ) (v : T → ℝ) :
    ∑ d', (a d' : EReal) * ∑ t, (u t d' : EReal) * (v t : EReal)
      = ∑ t, (∑ d', (a d' : EReal) * (u t d' : EReal)) * (v t : EReal) := by
  simp only [← EReal.coe_mul, coe_sum]
  exact congrArg _ (reassoc_real a u v)

/-- On arrays of real numbers the two arrangements are one function. -/
theorem gramFirst_eq_scoresFirst {enc dec : Arr.Idx → EReal} (he : AllReal enc) (hd : AllReal dec) :
    gramFirst enc dec = scoresFirst enc dec := by
  choose e he using he
  choose q hq using hd
  funext i
  unfold gramFirst scoresFirst
  simp only [he, hq]
  exact reassoc (fun d' => q (ix3 (i 0) (i 1) d')) (fun t d' => e (ix3 (i 0) t d')) (fun t => e (ix3 (i 0) t (i 2)))

end Cert.Scores

end
-- ==== Proof.Finite.lean ====
/-
  From the precondition to real numbers.

  The precondition says, of each input array x, that |x| < +∞ holds at every index (a conjunction of two "for all"
  reductions). An extended real whose absolute value max(x, -x) is below +∞ is neither +∞ nor -∞, so it is a real
  number: both inputs are arrays of reals.
-/
import proofs.«102380_j12610023981417_1_alg».proof.Pre_finite_inputs
import proofs.«102380_j12610023981417_1_alg».proof.Proof.Scores
import Idealize.ShloMosaic.Lib.ReduceAll

noncomputable section

namespace Cert.Scores

open Idealize.ShloMosaic

/-- An extended real whose absolute value is below +∞ is a real number: at either infinity the absolute value is +∞. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The rank-0 shape has one index. -/
instance : Subsingleton Cert.Pre_finite_inputs.S_.Idx := ⟨fun _ _ => funext fun d => d.elim0⟩

/-- Where the precondition holds, both input arrays hold only real numbers. -/
theorem allReal_of_finite [Cert.Pre_finite_inputs.Facts] (a0 a1 : FVec Ideal Cert.Pre_finite_inputs.S8x2048x128 .f32)
    (h : Cert.Pre_finite_inputs.fn (F := Ideal) a0 a1 = fun _ => 1#1) : AllReal a0 ∧ AllReal a1 := by
  have htop : Ideal.ofBits .f32 0x7F800000#32 = ⊤ := by simp [Ideal.ofBits, Ideal.ieee]
  have h0 := congrFun h ValueIdx.ix0
  dsimp only [Cert.Pre_finite_inputs.fn] at h0
  obtain ⟨h1, h2⟩ := IntOp.andi_eq_one.1 h0
  refine ⟨fun i => real_of_abs_lt_top _ ?_, fun i => real_of_abs_lt_top _ ?_⟩
  · have e := Host.reduce_andi_all _ _ _ _ _ h1 i
    rw [← htop]; exact e
  · have e := Host.reduce_andi_all _ _ _ _ _ h2 i
    rw [← htop]; exact e

end Cert.Scores

end
-- ==== Proof.RefScores.lean ====
/-
  The reference computes the scores-first arrangement.

  Its two contractions, read at an index: the first gives the table of dot products S[b, q, k] = ∑_{d'} Q[b, q, d'] · E[b, k, d'],
  the second contracts S with E over k. Composed, entry (b, q, d) is ∑ₖ S[b, q, k] · E[b, k, d].
-/
import proofs.«102380_j12610023981417_1_alg».proof.Proof.Gen.ReferenceIdeal.Read
import proofs.«102380_j12610023981417_1_alg».proof.Proof.Scores

noncomputable section

namespace Cert.Scores

open Idealize.ShloMosaic Idealize.ShloMosaic.ValueIdx Cert.ReferenceIdeal Cert.ReferenceIdeal.Read

/-- The reference's result, as a function of the encoder array and the decoder array, is the scores-first arrangement. -/
theorem reference_eq (enc dec : (⟨S8x2048x128, .f32⟩ : BufTy).Contents (Elt Ideal)) :
    val_main_v1 (F := Ideal) enc dec = scoresFirst enc dec := by
  funext i
  rw [val_main_v1_apply]
  unfold scoresFirst
  refine Finset.sum_congr rfl fun k _ => ?_
  rw [val_main_v0_apply]
  have e1 : ∀ d' : Fin 128, lidx_main_v0 (lidx_main_v1 i k) d' = ix3 (i 0) (i 1) d' := fun d' => funext fun a => by
    match a with | ⟨0, _⟩ => rfl | ⟨1, _⟩ => rfl | ⟨2, _⟩ => rfl
  have e2 : ∀ d' : Fin 128, ridx_main_v0 (lidx_main_v1 i k) d' = ix3 (i 0) k d' := fun d' => funext fun a => by
    match a with | ⟨0, _⟩ => rfl | ⟨1, _⟩ => rfl | ⟨2, _⟩ => rfl
  have e3 : ridx_main_v1 i k = ix3 (i 0) k (i 2) := funext fun a => by
    match a with | ⟨0, _⟩ => rfl | ⟨1, _⟩ => rfl | ⟨2, _⟩ => rfl
  simp only [e1, e2, e3]
  rfl

end Cert.Scores

end
-- ==== Proof.KernelGram.lean ====
/-
  The kernel body computes the Gram-first arrangement of one batch entry.

  With E and Q the two loaded blocks (2048 rows of 128 numbers each, behind a unit axis), the body forms the Gram matrix
  G[a, b] = ∑ₜ E[t, a] · E[t, b] (a contraction over the ROWS of both operands, into a zero accumulator) and then
  Q · G, entry (q, d) being ∑_{d'} Q[q, d'] · G[d', d]. The changes of float format in between are the identity on the
  extended reals.
-/
import proofs.«102380_j12610023981417_1_alg».proof.Proof.Gen.KernelIdeal.Skeleton
import proofs.«102380_j12610023981417_1_alg».proof.Proof.Scores
import Idealize.ShloMosaic.Lib.ValueLayout

noncomputable section

namespace Cert.Scores

open Idealize.ShloMosaic Idealize.ShloMosaic.ValueIdx Cert.KernelIdeal Cert.KernelIdeal.Gen

/-! ## The Gram contraction: rows of both operands -/

theorem gram_lhs_0 (i : S128x128.Idx) (q : dot_S2048x128_S2048x128_S128x128_0_0_1_1_n_n.contr.Idx) :
    (dot_S2048x128_S2048x128_S128x128_0_0_1_1_n_n.lhsIdx i q 0).val = (q ⟨0, by decide⟩).val :=
  dot_S2048x128_S2048x128_S128x128_0_0_1_1_n_n.lhsIdx_val_of_single rfl i q
theorem gram_lhs_1 (i : S128x128.Idx) (q : dot_S2048x128_S2048x128_S128x128_0_0_1_1_n_n.contr.Idx) :
    (dot_S2048x128_S2048x128_S128x128_0_0_1_1_n_n.lhsIdx i q 1).val = (i 0).val := by
  unfold DotDims.lhsIdx
  rw [dif_neg (show ¬(1 : Fin S2048x128.rank) ∈ dot_S2048x128_S2048x128_S128x128_0_0_1_1_n_n.lhsBatch by decide), dif_pos (show (1 : Fin S2048x128.rank) ∈ dot_S2048x128_S2048x128_S128x128_0_0_1_1_n_n.lhsNonContracting by decide)]
  rfl
theorem gram_rhs_0 (i : S128x128.Idx) (q : dot_S2048x128_S2048x128_S128x128_0_0_1_1_n_n.contr.Idx) :
    (dot_S2048x128_S2048x128_S128x128_0_0_1_1_n_n.rhsIdx i q 0).val = (q ⟨0, by decide⟩).val :=
  dot_S2048x128_S2048x128_S128x128_0_0_1_1_n_n.rhsIdx_val_of_single rfl i q
theorem gram_rhs_1 (i : S128x128.Idx) (q : dot_S2048x128_S2048x128_S128x128_0_0_1_1_n_n.contr.Idx) :
    (dot_S2048x128_S2048x128_S128x128_0_0_1_1_n_n.rhsIdx i q 1).val = (i 1).val := by
  unfold DotDims.rhsIdx
  rw [dif_neg (show ¬(1 : Fin S2048x128.rank) ∈ dot_S2048x128_S2048x128_S128x128_0_0_1_1_n_n.rhsBatch by decide), dif_pos (show (1 : Fin S2048x128.rank) ∈ dot_S2048x128_S2048x128_S128x128_0_0_1_1_n_n.rhsNonContracting by decide)]
  rfl

/-- The Gram contraction into a zero accumulator, at entry (a, b): the sum over the rows t of l[t, a] · r[t, b]. -/
theorem gram_apply {φ₁ φ₂ : FTy} (l : FVec Ideal S2048x128 φ₁) (r : FVec Ideal S2048x128 φ₂) (a b : Fin 128) :
    matmul dot_S2048x128_S2048x128_S128x128_0_0_1_1_n_n none l r (constant S128x128 .f32 0x00000000#32) (ix2 a b)
      = ∑ t : Fin 2048, l (ix2 t a) * r (ix2 t b) := by
  simp only [matmul]
  rw [Ideal.matmul_constant_zero_apply, ← Equiv.sum_comp (contrEquiv1 dot_S2048x128_S2048x128_S128x128_0_0_1_1_n_n 2048 rfl rfl).symm]
  refine Finset.sum_congr rfl fun k _ => ?_
  have hk := contrEquiv1_symm_val dot_S2048x128_S2048x128_S128x128_0_0_1_1_n_n 2048 rfl rfl k
  have el : dot_S2048x128_S2048x128_S128x128_0_0_1_1_n_n.lhsIdx (ix2 a b) ((contrEquiv1 dot_S2048x128_S2048x128_S128x128_0_0_1_1_n_n 2048 rfl rfl).symm k) = ix2 k a := funext fun x => Fin.ext (by
    match x with
    | ⟨0, _⟩ => exact (gram_lhs_0 _ _).trans hk
    | ⟨1, _⟩ => exact gram_lhs_1 _ _)
  have er : dot_S2048x128_S2048x128_S128x128_0_0_1_1_n_n.rhsIdx (ix2 a b) ((contrEquiv1 dot_S2048x128_S2048x128_S128x128_0_0_1_1_n_n 2048 rfl rfl).symm k) = ix2 k b := funext fun x => Fin.ext (by
    match x with
    | ⟨0, _⟩ => exact (gram_rhs_0 _ _).trans hk
    | ⟨1, _⟩ => exact gram_rhs_1 _ _)
  rw [el, er]

/-! ## The product with the Gram matrix: columns of the left operand against rows of the right -/

theorem out_lhs_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem out_lhs_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem out_rhs_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem out_rhs_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The product into a zero accumulator, at entry (q, d): the sum over d' of l[q, d'] · r[d', d]. -/
theorem out_apply {φ₁ φ₂ : FTy} (l : FVec Ideal S2048x128 φ₁) (r : FVec Ideal S128x128 φ₂) (q : Fin 2048) (d : Fin 128) :
    matmul dot_S2048x128_S128x128_S2048x128_1_0_0_1_n_n none l r (constant S2048x128 .f32 0x00000000#32) (ix2 q d)
      = ∑ d' : Fin 128, l (ix2 q d') * r (ix2 d' d) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 q d) ((contrEquiv1 dot_S2048x128_S128x128_S2048x128_1_0_0_1_n_n 128 rfl rfl).symm k) = ix2 q k := funext fun x => Fin.ext (by
    match x with
    | ⟨0, _⟩ => exact out_lhs_0 _ _
    | ⟨1, _⟩ => exact (out_lhs_1 _ _).trans hk)
  have er : dot_S2048x128_S128x128_S2048x128_1_0_0_1_n_n.rhsIdx (ix2 q d) ((contrEquiv1 dot_S2048x128_S128x128_S2048x128_1_0_0_1_n_n 128 rfl rfl).symm k) = ix2 k d := funext fun x => Fin.ext (by
    match x with
    | ⟨0, _⟩ => exact (out_rhs_0 _ _).trans hk
    | ⟨1, _⟩ => exact out_rhs_1 _ _)
  rw [el, er]

/-! ## The body's stored value at an entry -/

/-- The value the body stores, at entry (u, q, d) of its block (u the unit axis): Q · (Eᵀ · E) at (q, d), over the two
    loaded blocks x0 (the encoder's) and x1 (the decoder's). -/
theorem pay_apply (x0 x1 : Vec Ideal S1x2048x128 .f32) (u : Fin 1) (q : Fin 2048) (d : Fin 128) :
    k0_pay1 (F := Ideal) x0 x1 (ix3 u q d)
      = ∑ d' : Fin 128, x1 (ix3 0 q d') * ∑ t : Fin 2048, x0 (ix3 0 t d') * x0 (ix3 0 t d) := by
  unfold k0_pay1
  rw [shapeCast_ab_1ab_apply, out_apply]
  refine Finset.sum_congr rfl fun d' _ => ?_
  rw [truncf_apply, truncf_apply, shapeCast_1ab_ab_apply, gram_apply]
  refine congrArg _ (Finset.sum_congr rfl fun t _ => ?_)
  rw [truncf_apply, truncf_apply, shapeCast_1ab_ab_apply, shapeCast_1ab_ab_apply]

/-- So, when the two blocks are batch entry b of the arrays enc and dec, the stored value at (u, q, d) is the Gram-first
    arrangement of those arrays at (b, q, d). -/
theorem pay_eq_gramFirst (enc dec : Arr.Idx → EReal) (x0 x1 : Vec Ideal S1x2048x128 .f32) (b : Fin 8)
    (h0 : ∀ (t : Fin 2048) (d : Fin 128), x0 (ix3 0 t d) = enc (ix3 b t d))
    (h1 : ∀ (q : Fin 2048) (d : Fin 128), x1 (ix3 0 q d) = dec (ix3 b q d))
    (u : Fin 1) (q : Fin 2048) (d : Fin 128) :
    k0_pay1 (F := Ideal) x0 x1 (ix3 u q d) = gramFirst enc dec (ix3 b q d) := by
  rw [pay_apply]
  unfold gramFirst
  simp only [h0, h1]

end Cert.Scores

end
-- ==== Proof.KernelArray.lean ====
/-
  From the blocks to the whole result array.

  The grid has one point per batch entry. Point t reads batch entry t of both inputs (2048 rows of 128 numbers, whole)
  and writes batch entry t of the result, so the blocks written are disjoint and every index (b, q, d) of the result
  lies in exactly the block of point b. What point t writes is, by the body's value, the Gram-first arrangement of
  the two input arrays restricted to batch entry t; hence after all points the result array IS that arrangement.
-/
import proofs.«102380_j12610023981417_1_alg».proof.Proof.Gen.KernelIdeal.Value
import proofs.«102380_j12610023981417_1_alg».proof.Proof.KernelGram

set_option maxRecDepth 16384

noncomputable section

namespace Cert.Scores

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every load and the store of the body start at the origin of their buffer. -/
theorem origin : (![0, 0, 0] : Fin 3 → Nat) = fun _ => 0 := funext fun a => by fin_cases a <;> rfl

/-- Point t works on batch entry t: the block index of each of the three windows at t is (t, 0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The batch entry of a grid point. -/
def batchOf (t : Fin cfg0.N) : Fin 8 := ⟨t.val, lt_of_lt_of_eq (show t.val < grid0.N from t.isLt) N_0⟩

/-- The encoder's block at point t is batch entry t of the encoder array. -/
theorem enc_block (c : Dev nD) (t : Fin cfg0.N) (r : Fin 2048) (d : Fin 128) :
    iblk m c 0 t (ix3 (0 : Fin 1) r d) = V m c main_arg0 (ix3 (batchOf t) r d) := by
  obtain ⟨e0, e1, e2, -⟩ := block_index t
  show V m c main_arg0 (((cfg0.win 0).blk t).view.emb (ix3 (0 : Fin 1) r d)) = _
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * r.val = r.val; omega
  | ⟨2, _⟩ => show win0_0.index t (2 : Fin 3) * 128 + 1 * d.val = d.val; omega

/-- The decoder's block at point t is batch entry t of the decoder array. -/
theorem dec_block (c : Dev nD) (t : Fin cfg0.N) (r : Fin 2048) (d : Fin 128) :
    iblk m c 1 t (ix3 (0 : Fin 1) r d) = V m c main_arg1 (ix3 (batchOf t) r d) := by
  obtain ⟨-, -, -, e0, e1, e2, -⟩ := block_index t
  show V m c main_arg1 (((cfg0.win 1).blk t).view.emb (ix3 (0 : Fin 1) r d)) = _
  refine congrArg _ (funext fun a => Fin.ext ?_)
  match a with
  | ⟨0, _⟩ => show win0_1.index t (0 : Fin 3) * 1 + 1 * 0 = t.val; omega
  | ⟨1, _⟩ => show win0_1.index t (1 : Fin 3) * 2048 + 1 * r.val = r.val; omega
  | ⟨2, _⟩ => show win0_1.index t (2 : Fin 3) * 128 + 1 * d.val = d.val; omega

/-- Entry (u, q, d) of the result's block at point t is entry (t, q, d) of the result array. -/
theorem out_block (t : Fin cfg0.N) (u : Fin 1) (q : Fin 2048) (d : Fin 128) :
    ((cfg0.win 2).blk t).view.emb (ix3 u q d) = ix3 (batchOf t) q d := by
  obtain ⟨-, -, -, -, -, -, e0, e1, e2⟩ := block_index t
  have hu : u.val = 0 := by omega
  refine funext fun a => Fin.ext ?_
  match a with
  | ⟨0, _⟩ => show win0_2.index t (0 : Fin 3) * 1 + 1 * u.val = t.val; omega
  | ⟨1, _⟩ => show win0_2.index t (1 : Fin 3) * 2048 + 1 * q.val = q.val; omega
  | ⟨2, _⟩ => show win0_2.index t (2 : Fin 3) * 128 + 1 * d.val = d.val; omega

/-- What point t writes back is block t of the Gram-first arrangement of the two input arrays. -/
theorem flushed_eq (c : Dev nD) (t : Fin cfg0.N) :
    (dats m 0 c).flushed 2 t
      = ((cfg0.win 2).blk t).view.read (Elt Ideal) (gramFirst (V m c main_arg0) (V m c main_arg1)) := by
  rw [Cert.KernelIdeal.Value.flushed2]
  unfold out0_2
  rw [View.canon_unit_zero origin]
  simp only [View.ld_unit_zero (S := S1x2048x128) origin]
  funext j
  obtain ⟨u, q, d, rfl⟩ : ∃ (u : Fin 1) (q : Fin 2048) (d : Fin 128), j = ix3 u q d := ⟨j 0, j 1, j 2, eq_ix3 j⟩
  show k0_pay1 (F := Ideal) (iblk m c 0 t) (iblk m c 1 t) (ix3 u q d)
    = gramFirst (V m c main_arg0) (V m c main_arg1) (((cfg0.win 2).blk t).view.emb (ix3 u q d))
  rw [out_block]
  exact pay_eq_gramFirst (V m c main_arg0) (V m c main_arg1) (iblk m c 0 t) (iblk m c 1 t) (batchOf t)
    (enc_block m c t) (dec_block m c t) u q d

/-- An index of the result array is in point t's block iff each coordinate is in the block's range on its axis. -/
theorem mem_block (t : Fin cfg0.N) (i : S8x2048x128.Idx) :
    i ∈ ((cfg0.win 2).blk t).view.set ↔ ∀ a : Fin 3, win0_2.index t a * S1x2048x128.size a ≤ (i a).val
      ∧ (i a).val < win0_2.index t a * S1x2048x128.size a + S1x2048x128.size a := by
  show i ∈ ((View.whole main_v0).slice (win0_2.rect t)).set ↔ _
  rw [View.set_slice_whole, Rect.mem_set_unit]
  exact Iff.rfl

/-- Every index (b, q, d) of the result array is in the block of point b. -/
theorem covered (i : S8x2048x128.Idx) :
    ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 128 := (i 2).isLt
  have hN : (i 0).val < grid0.N := by rw [N_0]; exact h0
  obtain ⟨-, -, -, -, -, -, e0, e1, e2⟩ := block_index ⟨(i 0).val, hN⟩
  have e0' : win0_2.index ⟨(i 0).val, hN⟩ (0 : Fin 3) = (i 0).val := e0
  refine ⟨⟨(i 0).val, hN⟩, flush0_2 _, ?_⟩
  rw [mem_block]
  intro a
  match a with
  | ⟨0, _⟩ =>
    show win0_2.index ⟨(i 0).val, hN⟩ (0 : Fin 3) * 1 ≤ (i 0).val ∧ (i 0).val < win0_2.index ⟨(i 0).val, hN⟩ (0 : Fin 3) * 1 + 1
    omega
  | ⟨1, _⟩ =>
    show win0_2.index ⟨(i 0).val, hN⟩ (1 : Fin 3) * 2048 ≤ (i 1).val ∧ (i 1).val < win0_2.index ⟨(i 0).val, hN⟩ (1 : Fin 3) * 2048 + 2048
    omega
  | ⟨2, _⟩ =>
    show win0_2.index ⟨(i 0).val, hN⟩ (2 : Fin 3) * 128 ≤ (i 2).val ∧ (i 2).val < win0_2.index ⟨(i 0).val, hN⟩ (2 : Fin 3) * 128 + 128
    omega

/-- After the run the result array is the Gram-first arrangement of the two input arrays as launched. -/
theorem result_eq (c : Dev nD) :
    (dats m 0 c).arrAt 2 cfg0.N
      = gramFirst (m ((c : Thread nD τ).loc main_arg0)) (m ((c : Thread nD τ).loc main_arg1)) :=
  (dats m 0 c).arrAt_eq_of_cover 2 (gramFirst (V m c main_arg0) (V m c main_arg1)) (fun t _ => flushed_eq m c t) covered

/-- The kernel's run: every weakly fair execution terminates with the result array at the Gram-first arrangement of the
    inputs, and the inputs unchanged. -/
theorem kernel_run : θ_run defs (onTc (τ := τ) (main (F := Ideal))) ⟨m, fun _ => 0, ρ⟩ fun r => ∀ c : Dev nD,
      r.2.mem ((c : Thread nD τ).loc main_v0)
        = gramFirst (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.Scores

end
-- ==== Proof.lean ====
/-
  Attention scores with the Gram matrix first, against the scores-first reference.

  Per batch entry, with E the encoder states and Q the decoder states (2048 rows of 128 numbers each), the reference
  forms the 2048 × 2048 table of dot products S = Q · Eᵀ and returns S · E. The kernel, one grid point per batch
  entry, forms the 128 × 128 Gram matrix Eᵀ · E and returns Q · (Eᵀ · E). Over the extended reals every float
  operation is exact and a change of float format is the identity, so the two programs compute
      ∑ₖ (∑_{d'} Q[q, d'] · E[k, d']) · E[k, d]     and     ∑_{d'} Q[q, d'] · (∑ₜ E[t, d'] · E[t, d]).
  These agree by associativity of the matrix product, which moves a factor across a sum; on the extended reals
  that needs the entries to be real numbers, and the precondition (every input finite) gives exactly that.

  The modules: Scores (the two arrangements and the law joining them), Finite (the precondition makes both inputs
  arrays of reals), RefScores (the reference is the scores-first arrangement), KernelGram (the kernel body's stored
  value is the Gram-first arrangement of its two blocks), KernelArray (block by block, the kernel's result array is the
  Gram-first arrangement of the input arrays). The kernel's and the reference's runs and the three frames are the
  generated ones; the idealization rewrote nothing, so its conjunct is trivial.
-/
import proofs.«102380_j12610023981417_1_alg».proof.Defs
import proofs.«102380_j12610023981417_1_alg».proof.Proof.Gen.Kernel
import proofs.«102380_j12610023981417_1_alg».proof.Proof.Gen.Kernel.Skeleton
import proofs.«102380_j12610023981417_1_alg».proof.Proof.Gen.Kernel.Launch
import proofs.«102380_j12610023981417_1_alg».proof.Proof.Gen.Kernel.Points
import proofs.«102380_j12610023981417_1_alg».proof.Proof.Gen.Kernel.Frame
import proofs.«102380_j12610023981417_1_alg».proof.Proof.Gen.KernelIdeal
import proofs.«102380_j12610023981417_1_alg».proof.Proof.Gen.KernelIdeal.Skeleton
import proofs.«102380_j12610023981417_1_alg».proof.Proof.Gen.KernelIdeal.Launch
import proofs.«102380_j12610023981417_1_alg».proof.Proof.Gen.KernelIdeal.Points
import proofs.«102380_j12610023981417_1_alg».proof.Proof.Gen.KernelIdeal.Frame
import proofs.«102380_j12610023981417_1_alg».proof.Proof.Gen.ReferenceIdeal
import proofs.«102380_j12610023981417_1_alg».proof.Proof.Gen.Pre_finite_inputs
import proofs.«102380_j12610023981417_1_alg».proof.Proof.Gen.KernelIdeal.Value
import proofs.«102380_j12610023981417_1_alg».proof.Proof.Gen.ReferenceIdeal.Run
import proofs.«102380_j12610023981417_1_alg».proof.Proof.Gen.ReferenceIdeal.Read
import proofs.«102380_j12610023981417_1_alg».proof.Proof.Finite
import proofs.«102380_j12610023981417_1_alg».proof.Proof.RefScores
import proofs.«102380_j12610023981417_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its inputs unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its inputs unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two inputs, the kernel ends with the Gram-first arrangement of them and the reference
    with the scores-first arrangement; the inputs being finite, these are the same array. -/
theorem algebraic : Cert.algebraic_KernelIdeal_ReferenceIdeal := by
  intro m ρ m' ρ' hpre hagree
  refine ⟨fun c => Cert.Scores.gramFirst (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.Scores.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.Scores.reference_eq, (hagree c).1, (hagree c).2]
  obtain ⟨he, hd⟩ := Cert.Scores.allReal_of_finite _ _ (hpre c)
  exact (Cert.Scores.gramFirst_eq_scoresFirst he hd).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
